-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x1024 : Shape := ⟨2, ![1024, 1024]⟩
abbrev S1024 : Shape := ⟨1, ![1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S256x1024 .f32) (main_arg1 : FVec F S1024x1024 .f32) (main_arg2 : FVec F S1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S128x1024 : Shape := ⟨2, ![128, 1024]⟩
abbrev S1024x128 : Shape := ⟨2, ![1024, 128]⟩
abbrev S1x128 : Shape := ⟨2, ![1, 128]⟩
abbrev S128x128 : Shape := ⟨2, ![128, 128]⟩
abbrev S128x128x1 : Shape := ⟨3, ![128, 128, 1]⟩
abbrev S1x128x128 : Shape := ⟨3, ![1, 128, 128]⟩
abbrev S128x128x128 : Shape := ⟨3, ![128, 128, 128]⟩

abbrev nBuf : Space → Nat
  | .hbm => 5
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1024_S1x1024 : S1024.ShapeCasts S1x1024
  inb_S128x1024_S128x128_0_0 : ∀ a, (![0, 0] : Fin 2 → Nat) a + S128x128.size a ≤ S128x1024.size a
  h_S128x128 : 0 < S128x128.numel
  inb_S1024x128_S128x128_0_0 : ∀ a, (![0, 0] : Fin 2 → Nat) a + S128x128.size a ≤ S1024x128.size a
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  reduces_S128x128x128_S128x128 : S128x128x128.Reduces [1] S128x128
  inb_S128x1024_S128x128_0_128 : ∀ a, (![0, 128] : Fin 2 → Nat) a + S128x128.size a ≤ S128x1024.size a
  inb_S1024x128_S128x128_128_0 : ∀ a, (![128, 0] : Fin 2 → Nat) a + S128x128.size a ≤ S1024x128.size a
  inb_S128x1024_S128x128_0_256 : ∀ a, (![0, 256] : Fin 2 → Nat) a + S128x128.size a ≤ S128x1024.size a
  inb_S1024x128_S128x128_256_0 : ∀ a, (![256, 0] : Fin 2 → Nat) a + S128x128.size a ≤ S1024x128.size a
  inb_S128x1024_S128x128_0_384 : ∀ a, (![0, 384] : Fin 2 → Nat) a + S128x128.size a ≤ S128x1024.size a
  inb_S1024x128_S128x128_384_0 : ∀ a, (![384, 0] : Fin 2 → Nat) a + S128x128.size a ≤ S1024x128.size a
  inb_S128x1024_S128x128_0_512 : ∀ a, (![0, 512] : Fin 2 → Nat) a + S128x128.size a ≤ S128x1024.size a
  inb_S1024x128_S128x128_512_0 : ∀ a, (![512, 0] : Fin 2 → Nat) a + S128x128.size a ≤ S1024x128.size a
  inb_S128x1024_S128x128_0_640 : ∀ a, (![0, 640] : Fin 2 → Nat) a + S128x128.size a ≤ S128x1024.size a
  inb_S1024x128_S128x128_640_0 : ∀ a, (![640, 0] : Fin 2 → Nat) a + S128x128.size a ≤ S1024x128.size a
  inb_S128x1024_S128x128_0_768 : ∀ a, (![0, 768] : Fin 2 → Nat) a + S128x128.size a ≤ S128x1024.size a
  inb_S1024x128_S128x128_768_0 : ∀ a, (![768, 0] : Fin 2 → Nat) a + S128x128.size a ≤ S1024x128.size a
  inb_S128x1024_S128x128_0_896 : ∀ a, (![0, 896] : Fin 2 → Nat) a + S128x128.size a ≤ S128x1024.size a
  inb_S1024x128_S128x128_896_0 : ∀ a, (![896, 0] : Fin 2 → Nat) a + S128x128.size a ≤ S1024x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S256x1024.size a
  hwx0_0 : ∀ i : grid0.Coords, EltTy.bits .f32 = 32 ∨ (Rect.block (s := S256x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x1024.size a
  hwx0_1 : ∀ i : grid0.Coords, EltTy.bits .f32 = 32 ∨ (Rect.block (s := S1024x1024) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S256x1024.size a
  hwx0_3 : ∀ i : grid0.Coords, EltTy.bits .f32 = 32 ∨ (Rect.block (s := S256x1024) S128x128.size (cc0_transform_3 i) (hinb0_3 i)).WholeWords (EltTy.packing .f32)

variable [Facts₀]

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x1024 : Shape := ⟨2, ![256, 1024]⟩
abbrev S1024x1024 : Shape := ⟨2, ![1024, 1024]⟩
abbrev S1024 : Shape := ⟨1, ![1024]⟩
abbrev S256x1024x1 : Shape := ⟨3, ![256, 1024, 1]⟩
abbrev S1x1024x1024 : Shape := ⟨3, ![1, 1024, 1024]⟩
abbrev S256x1024x1024 : Shape := ⟨3, ![256, 1024, 1024]⟩
abbrev S_ : Shape := ⟨0, ![]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024, .f32⟩
  | .hbm, ⟨3, _⟩ => ⟨S256x1024x1, .f32⟩
  | .hbm, ⟨4, _⟩ => ⟨S1x1024x1024, .f32⟩
  | .hbm, ⟨5, _⟩ => ⟨S256x1024x1024, .f32⟩
  | .hbm, ⟨6, _⟩ => ⟨S256x1024x1024, .f32⟩
  | .hbm, ⟨7, _⟩ => ⟨S256x1024x1024, .f32⟩
  | .hbm, ⟨8, _⟩ => ⟨S_, .f32⟩
  | .hbm, ⟨9, _⟩ => ⟨S256x1024, .f32⟩
  | .hbm, ⟨10, _⟩ => ⟨S1x1024, .f32⟩
  | .hbm, ⟨11, _⟩ => ⟨S256x1024, .f32⟩
  | .hbm, ⟨12, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S256x1024_S256x1024x1_0_1 : S256x1024.BroadcastsInDim S256x1024x1 (![0, 1] : Fin 2 → Fin S256x1024x1.rank)
  bcast_S1024x1024_S1x1024x1024_1_2 : S1024x1024.BroadcastsInDim S1x1024x1024 (![1, 2] : Fin 2 → Fin S1x1024x1024.rank)
  bcast_S256x1024x1_S256x1024x1024_0_1_2 : S256x1024x1.BroadcastsInDim S256x1024x1024 (![0, 1, 2] : Fin 3 → Fin S256x1024x1024.rank)
  bcast_S1x1024x1024_S256x1024x1024_0_1_2 : S1x1024x1024.BroadcastsInDim S256x1024x1024 (![0, 1, 2] : Fin 3 → Fin S256x1024x1024.rank)
  reducesTo_S256x1024x1024_S256x1024_d1 : S256x1024x1024.ReducesTo [1] S256x1024
  h_S_ : 0 < S_.numel
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)

variable [Facts₀]

class Facts : Prop extends Facts₀ where

variable [Facts]
-- ==== Proof.Spec.lean ====
/-
  The max-plus ("tropical") dense layer both programs compute, over the extended reals:

      out[b, u] = max ( max over i of (x[b, i] - k[i, u]) , bias[u] )

  for x : [256, 1024], k : [1024, 1024], bias : [1024]. The inner maximum runs over all 1024 values of `i` and is
  written as a fold of `max` over `Fin 1024` started from the f32 word of -∞ — the word both programs start from, so
  it is never evaluated. The bias enters by `max`, not by addition.
-/
import Idealize.ShloMosaic.PureOps.Ideal
import Idealize.ShloMosaic.Lib.ValueIdx

noncomputable section

namespace Cert.MaxPlus

open Idealize.ShloMosaic Idealize.ShloMosaic.ValueIdx

/-- The value every maximum starts from: the f32 word of -∞, read at the ideal instance. -/
abbrev start : EReal := Ideal.ofBits .f32 0xFF800000#32

/-- `out[b, u] = max (max_i (x[b, i] - k[i, u])) bias[u]`. -/
def dense (x : (⟨2, ![256, 1024]⟩ : Shape).Idx → EReal) (k : (⟨2, ![1024, 1024]⟩ : Shape).Idx → EReal)
    (bias : (⟨1, ![1024]⟩ : Shape).Idx → EReal) : (⟨2, ![256, 1024]⟩ : Shape).Idx → EReal :=
  fun i => max ((Finset.univ : Finset (Fin 1024)).fold max start fun r => x (ix2 (i 0) r) - k (ix2 r (i 1)))
    (bias (ix1 (i 1)))

theorem dense_apply (x : (⟨2, ![256, 1024]⟩ : Shape).Idx → EReal) (k : (⟨2, ![1024, 1024]⟩ : Shape).Idx → EReal)
    (bias : (⟨1, ![1024]⟩ : Shape).Idx → EReal) (b : Fin 256) (u : Fin 1024) :
    dense x k bias (ix2 b u)
      = max ((Finset.univ : Finset (Fin 1024)).fold max start fun r => x (ix2 b r) - k (ix2 r u)) (bias (ix1 u)) := rfl

end Cert.MaxPlus

end
-- ==== Proof.LibMaxAxis.lean ====
/-
  Two readings at an index, over the extended reals, of a maximum taken along ONE axis:

  * `maxLead2_apply`: a `vector.multi_reduction <maximumf>` over axis 0 of a rank-2 vector [n0, n1], read at `q`, is the
    fold of `max` from the accumulator's value over `g : Fin n0` of the entries `(g, q)` — a column's maximum;
  * `hostMaxMid3_apply`: the host's one-operand `stablehlo.reduce` with a `maximum` body over the MIDDLE axis of a rank-3
    array [n0, n1, n2], read at `(b, l)`, is the fold of `max` from the initial value over `r : Fin n1` of the entries
    `(b, r, l)`.

  Both folds are over `Finset.univ`, so they are free of the order the reductions are carried out in; two of them over
  the same entries from the same start are equal by `Finset.fold_congr`.
-/
import Idealize.ShloMosaic.PureOps.Ideal.Laws
import Idealize.ShloMosaic.Lib.ValueIdx

noncomputable section

namespace Cert.Lib

open Idealize.ShloMosaic Idealize.ShloMosaic.ValueIdx

/-- The maximum over the leading axis of a rank-2 vector, read at `q`: the fold of `max`, from the accumulator's value,
    over `g` of the entries `(g, q)`. -/
theorem maxLead2_apply {n0 n1 : Nat} (src : FVec Ideal ⟨2, ![n0, n1]⟩ .f32) (acc : BitVec 32)
    (h : (⟨2, ![n0, n1]⟩ : Shape).Reduces [0] ⟨1, ![n1]⟩) (hφ : FKind.Formats .f32)
    (hacc : acc = FKind.maximumf.neutral .f32 hφ) (q : Fin n1) :
    multiReduction .maximumf [0] ⟨1, ![n1]⟩ src acc h hφ hacc (ix1 q)
      = (Finset.univ : Finset (Fin n0)).fold max (Ideal.ofBits .f32 acc) (fun g => src (ix2 g q)) := by
  refine (Ideal.multiReduction_maximumf_single src acc h hφ hacc (ix1 q)).trans ?_
  refine Finset.fold_congr fun g _ => congrArg src ?_
  funext a
  match a with
  | ⟨0, _⟩ => rfl
  | ⟨1, _⟩ => rfl

/-- The host's maximum over the middle axis of a rank-3 array, read at `(b, l)`: the fold of `max`, from the initial
    value, over `r` of the entries `(b, r, l)`. (`h` is the `Reduces` fact at the same shapes as the operation's
    `ReducesTo` fact `h'`; at literal shapes `by decide` gives it.) -/
theorem hostMaxMid3_apply {n0 n1 n2 : Nat} {u : Shape} (x : (⟨3, ![n0, n1, n2]⟩ : Shape).Idx → EReal) (init : u.Idx → EReal)
    (h' : (⟨3, ![n0, n1, n2]⟩ : Shape).ReducesTo [1] ⟨2, ![n0, n2]⟩) (h : (⟨3, ![n0, n1, n2]⟩ : Shape).Reduces [1] ⟨2, ![n0, n2]⟩)
    (hu : 0 < u.numel) (b : Fin n0) (l : Fin n2) :
    Host.reduce (FloatOps.maximumf (F := Ideal) (φ := .f32)) x init h' hu (ix2 b l)
      = (Finset.univ : Finset (Fin n1)).fold max (init (Shape.Idx.first hu)) (fun r => x (ix3 b r l)) := by
  refine (Host.reduce_eq_fold_single (FloatOps.maximumf (F := Ideal) (φ := .f32)) x init h' h hu (ix2 b l)).trans ?_
  refine Finset.fold_congr fun r _ => congrArg x ?_
  funext a
  match a with
  | ⟨0, _⟩ => rfl
  | ⟨1, _⟩ => rfl
  | ⟨2, _⟩ => rfl

end Cert.Lib

end
-- ==== Proof.RefValue.lean ====
/-
  The reference computes `MaxPlus.dense`: it broadcasts x to [256, 1024, 1] and k to [1, 1024, 1024], both to
  [256, 1024, 1024], subtracts, takes the maximum over the middle axis from -∞, and takes `max` with the bias broadcast
  along the rows. Read at (b, u): the difference at (b, r, u) is x[b, r] - k[r, u], the middle-axis maximum is the fold of
  `max` over r, and the broadcast bias is bias[u].
-/
import proofs.«131170_j10393820857004_1_alg».proof.Proof.Gen.ReferenceIdeal.Read
import proofs.«131170_j10393820857004_1_alg».proof.Proof.Spec
import proofs.«131170_j10393820857004_1_alg».proof.Proof.LibMaxAxis

noncomputable section

namespace Cert.ReferenceIdeal.RefValue

open Cert.ReferenceIdeal Cert.ReferenceIdeal.Gen Cert.ReferenceIdeal.Read
open Idealize.ShloMosaic Idealize.ShloMosaic.ValueIdx

/-- The broadcast difference at (b, r, u) is x[b, r] - k[r, u]. -/
theorem diff_apply (x0 : FVec Ideal S256x1024 .f32) (x1 : FVec Ideal S1024x1024 .f32) (b : Fin 256) (r u : Fin 1024) :
    val_main_v4 (F := Ideal) x0 x1 (ix3 b r u) = x0 (ix2 b r) - x1 (ix2 r u) := by
  have e0 : idx_main_v0 (idx_main_v2 (ix3 b r u)) = ix2 b r := by
    funext a
    match a with
    | ⟨0, _⟩ => rfl
    | ⟨1, _⟩ => rfl
  have e1 : idx_main_v1 (idx_main_v3 (ix3 b r u)) = ix2 r u := by
    funext a
    match a with
    | ⟨0, _⟩ => rfl
    | ⟨1, _⟩ => rfl
  rw [val_main_v4_apply, val_main_v2_apply, val_main_v0_apply, val_main_v3_apply, val_main_v1_apply, e0, e1]
  rfl

/-- The bias broadcast along the rows, at (b, u), is bias[u]. -/
theorem bias_apply (x2 : FVec Ideal S1024 .f32) (b : Fin 256) (u : Fin 1024) :
    val_main_v7 (F := Ideal) x2 (ix2 b u) = x2 (ix1 u) := by
  have e : idx_main_v6 (idx_main_v7 (ix2 b u)) = ix1 u := by
    funext a
    match a with
    | ⟨0, _⟩ => rfl
  rw [val_main_v7_apply, val_main_v6_apply, e]

/-- The reference's result is the max-plus dense layer of its arguments. -/
theorem result_eq (x0 : FVec Ideal S256x1024 .f32) (x1 : FVec Ideal S1024x1024 .f32) (x2 : FVec Ideal S1024 .f32) :
    val_main_v8 (F := Ideal) x0 x1 x2 = Cert.MaxPlus.dense x0 x1 x2 := by
  funext i
  obtain ⟨b, u, rfl⟩ : ∃ (b : Fin 256) (u : Fin 1024), i = ix2 b u := ⟨i 0, i 1, eq_ix2 i⟩
  rw [val_main_v8_apply, bias_apply, Cert.MaxPlus.dense_apply]
  unfold val_main_v5
  rw [Cert.Lib.hostMaxMid3_apply (val_main_v4 (F := Ideal) x0 x1) (val_main_cst (F := Ideal))
    reducesTo_S256x1024x1024_S256x1024_d1 (by decide) h_S_ b u]
  simp only [diff_apply]
  rfl

end Cert.ReferenceIdeal.RefValue

end
-- ==== Proof.LibMaxChunks.lean ====
/-
  Maxima taken chunk by chunk, in a linear order, with every fold of `max` started from the same value `b`.

  * `fold_max_le_fold_max`: if every entry of one family is below some entry of another, the first family's
    maximum is below the second's;
  * `fold_max_eq_of_exists`: two families with the same set of values have the same maximum;
  * `runningMax8_eq`: a running maximum `max (… (max (max b M₀) M₁) …) M₇` over the maxima `M_c` of eight
    families `g c` is the maximum of one family `f` as soon as the `g c` together list exactly the values of `f`
    (an index range cut into eight consecutive chunks, each chunk reduced on its own and folded into an accumulator).

  Nothing is asked of `b`: `max` is idempotent, so starting every fold from `b` counts it once.
-/
import Mathlib.Data.Finset.Fold
import Mathlib.Data.Fintype.Basic
import Mathlib.Order.Lattice

namespace Cert.Lib

variable {α : Type*} [LinearOrder α] {ι κ : Type*} [Fintype ι] [Fintype κ]

/-- The start value is below the fold. -/
theorem le_fold_max_start (b : α) (f : ι → α) : b ≤ (Finset.univ : Finset ι).fold max b f :=
  (Finset.le_fold_max b).mpr (Or.inl le_rfl)

/-- Every entry is below the fold. -/
theorem le_fold_max_entry (b : α) (f : ι → α) (i : ι) : f i ≤ (Finset.univ : Finset ι).fold max b f :=
  (Finset.le_fold_max (f i)).mpr (Or.inr ⟨i, Finset.mem_univ i, le_rfl⟩)

/-- A family dominated entry by entry has the smaller maximum. -/
theorem fold_max_le_fold_max (b : α) (f : ι → α) (g : κ → α) (h : ∀ j, ∃ i, g j ≤ f i) :
    (Finset.univ : Finset κ).fold max b g ≤ (Finset.univ : Finset ι).fold max b f := by
  refine (Finset.fold_max_le _).mpr ⟨le_fold_max_start b f, fun j _ => ?_⟩
  obtain ⟨i, hi⟩ := h j
  exact hi.trans (le_fold_max_entry b f i)

/-- Two families with the same values have the same maximum. -/
theorem fold_max_eq_of_exists (b : α) (f : ι → α) (g : κ → α) (h1 : ∀ j, ∃ i, g j = f i) (h2 : ∀ i, ∃ j, f i = g j) :
    (Finset.univ : Finset κ).fold max b g = (Finset.univ : Finset ι).fold max b f :=
  le_antisymm (fold_max_le_fold_max b f g fun j => (h1 j).imp fun _ e => e.le)
    (fold_max_le_fold_max b g f fun i => (h2 i).imp fun _ e => e.le)

/-- The running maximum over eight chunk maxima is the maximum of the whole family. -/
theorem runningMax8_eq (b : α) (f : ι → α) (g : Fin 8 → κ → α)
    (h1 : ∀ c k, ∃ r, g c k = f r) (h2 : ∀ r, ∃ c k, f r = g c k) :
    max (max (max (max (max (max (max (max b
      ((Finset.univ : Finset κ).fold max b (g 0))) ((Finset.univ : Finset κ).fold max b (g 1)))
      ((Finset.univ : Finset κ).fold max b (g 2))) ((Finset.univ : Finset κ).fold max b (g 3)))
      ((Finset.univ : Finset κ).fold max b (g 4))) ((Finset.univ : Finset κ).fold max b (g 5)))
      ((Finset.univ : Finset κ).fold max b (g 6))) ((Finset.univ : Finset κ).fold max b (g 7))
      = (Finset.univ : Finset ι).fold max b f := by
  have hc : ∀ c, (Finset.univ : Finset κ).fold max b (g c) ≤ (Finset.univ : Finset ι).fold max b f := fun c =>
    fold_max_le_fold_max b f (g c) fun k => (h1 c k).imp fun _ e => e.le
  apply le_antisymm
  · exact max_le (max_le (max_le (max_le (max_le (max_le (max_le (max_le (le_fold_max_start b f) (hc 0)) (hc 1))
      (hc 2)) (hc 3)) (hc 4)) (hc 5)) (hc 6)) (hc 7)
  · refine (Finset.fold_max_le _).mpr ⟨?_, fun r _ => ?_⟩
    · simp only [le_max_iff, le_refl, true_or]
    · obtain ⟨c, k, e⟩ := h2 r
      rw [e]
      have hk : g c k ≤ (Finset.univ : Finset κ).fold max b (g c) := le_fold_max_entry b (g c) k
      match c, hk with
      | ⟨0, _⟩ , hk => exact le_max_of_le_left (le_max_of_le_left (le_max_of_le_left (le_max_of_le_left (le_max_of_le_left (le_max_of_le_left (le_max_of_le_left (le_max_of_le_right hk)))))))
      | ⟨1, _⟩ , hk => exact le_max_of_le_left (le_max_of_le_left (le_max_of_le_left (le_max_of_le_left (le_max_of_le_left (le_max_of_le_left (le_max_of_le_right hk))))))
      | ⟨2, _⟩ , hk => exact le_max_of_le_left (le_max_of_le_left (le_max_of_le_left (le_max_of_le_left (le_max_of_le_left (le_max_of_le_right hk)))))
      | ⟨3, _⟩ , hk => exact le_max_of_le_left (le_max_of_le_left (le_max_of_le_left (le_max_of_le_left (le_max_of_le_right hk))))
      | ⟨4, _⟩ , hk => exact le_max_of_le_left (le_max_of_le_left (le_max_of_le_left (le_max_of_le_right hk)))
      | ⟨5, _⟩ , hk => exact le_max_of_le_left (le_max_of_le_left (le_max_of_le_right hk))
      | ⟨6, _⟩ , hk => exact le_max_of_le_left (le_max_of_le_right hk)
      | ⟨7, _⟩ , hk => exact le_max_of_le_right hk
      | ⟨n + 8, hn⟩ , hk => exact absurd hn (by omega)

end Cert.Lib
-- ==== Proof.BlockValue.lean ====
/-
  What the kernel body leaves in its [128, 128] output block, read at an entry (p, q), as a function of its three input
  blocks x : [128, 1024], k : [1024, 128], bias : [1, 128].

  The body walks the 1024 values of the contracted index in eight chunks of 128. For chunk `c` it loads the
  [128, 128] pieces x[:, 128c .. 128c+127] and k[128c .. 128c+127, :], broadcasts both to [128, 128, 128], subtracts, and
  takes the maximum over the middle axis from -∞: at (p, q) that is the maximum over j < 128 of
  x[p, 128c + j] - k[128c + j, q] (`piece_apply`, and `fold_ld` for the loads). It folds the eight chunk maxima into an
  accumulator that starts at -∞, and finally takes `max` with the bias row broadcast down the block (`bias_apply`). A
  running maximum over the chunks of an index range is the maximum over the range, so the block entry is
  `max (max over i < 1024 of (x[p, i] - k[i, q])) bias[0, q]` (`block_apply`).

  The tree of the body's operations is read off generically in the float instance (`body_tree`), where nothing can be
  evaluated; at the ideal instance each chunk's reduction is then replaced by its fold of `max` through a congruence
  over plain extended reals (`running_eq`), never by unfolding a reduction.
-/
import proofs.«131170_j10393820857004_1_alg».proof.Proof.Gen.KernelIdeal.Frame
import proofs.«131170_j10393820857004_1_alg».proof.Proof.Spec
import proofs.«131170_j10393820857004_1_alg».proof.Proof.LibMaxChunks
import Idealize.ShloMosaic.Lib.Pipeline.Value
import Idealize.ShloMosaic.Lib.ValueIdx
import Idealize.ShloMosaic.PureOps.Ideal.Laws

set_option maxRecDepth 16384

noncomputable section

namespace Cert.KernelIdeal.BlockValue

open Cert.KernelIdeal Cert.KernelIdeal.Gen
open Idealize.ShloMosaic Idealize.ShloMosaic.TcCoe Idealize.ShloMosaic.ValueIdx

/-- The reduced index (p, q) with `j` put back on the middle axis is (p, j, q). -/
theorem lift_mid (p q : Fin 128) (j : Fin (S128x128x128.size 1)) :
    reduces_S128x128x128_S128x128.lift (ix2 p q) j = ix3 p (⟨j.val, j.isLt⟩ : Fin 128) q := by
  funext a
  apply Fin.ext
  match a with
  | ⟨0, _⟩ => rfl
  | ⟨1, _⟩ => rfl
  | ⟨2, _⟩ => rfl

/-- A [128, 128] piece viewed [128, 128, 1] and broadcast along the last axis, at (p, j, q), is the piece at (p, j). -/
theorem rows_apply (v : Vec Ideal S128x128 .f32) (p j q : Fin 128) :
    broadcastTo S128x128x128 (shapeCast S128x128x1 v shapeCasts_S128x128_S128x128x1) broadcasts_S128x128x1_S128x128x128 (ix3 p j q)
      = v (ix2 p j) := by
  refine (broadcastTo_apply _ _ (ix3 p j q) (ix3 p j (0 : Fin 1)) (fun a => ?_)).trans ?_
  · match a with
    | ⟨0, _⟩ => show p.val = if (128 : Nat) = 1 then 0 else p.val; rw [if_neg (by decide)]
    | ⟨1, _⟩ => show j.val = if (128 : Nat) = 1 then 0 else j.val; rw [if_neg (by decide)]
    | ⟨2, _⟩ => show 0 = if (1 : Nat) = 1 then 0 else q.val; rw [if_pos rfl]
  · refine shapeCast_apply _ _ _ (ix2 p j) ?_
    rw [Shape.rowMajor_val_two, Shape.rowMajor_val_three]
    show p.val * 128 + j.val = (p.val * 128 + j.val) * 1 + 0
    omega

/-- A [128, 128] piece viewed [1, 128, 128] and broadcast along the first axis, at (p, j, q), is the piece at (j, q). -/
theorem cols_apply (v : Vec Ideal S128x128 .f32) (p j q : Fin 128) :
    broadcastTo S128x128x128 (shapeCast S1x128x128 v shapeCasts_S128x128_S1x128x128) broadcasts_S1x128x128_S128x128x128 (ix3 p j q)
      = v (ix2 j q) := by
  refine (broadcastTo_apply _ _ (ix3 p j q) (ix3 (0 : Fin 1) j q) (fun a => ?_)).trans ?_
  · match a with
    | ⟨0, _⟩ => show 0 = if (1 : Nat) = 1 then 0 else p.val; rw [if_pos rfl]
    | ⟨1, _⟩ => show j.val = if (128 : Nat) = 1 then 0 else j.val; rw [if_neg (by decide)]
    | ⟨2, _⟩ => show q.val = if (128 : Nat) = 1 then 0 else q.val; rw [if_neg (by decide)]
  · refine shapeCast_apply _ _ _ (ix2 j q) ?_
    rw [Shape.rowMajor_val_two, Shape.rowMajor_val_three]
    show j.val * 128 + q.val = (0 * 128 + j.val) * 128 + q.val
    omega

/-- One chunk's maximum: two [128, 128] pieces `a` (of x) and `b` (of k), broadcast to [128, 128, 128], subtracted and
    reduced by `max` over the middle axis from -∞, read at (p, q): the maximum over j of a[p, j] - b[j, q]. -/
theorem piece_apply (a b : Vec Ideal S128x128 .f32) (p q : Fin 128) :
    (multiReduction (F := Ideal) .maximumf [1] S128x128 (subf (broadcastTo S128x128x128 (shapeCast S128x128x1 a shapeCasts_S128x128_S128x128x1) broadcasts_S128x128x1_S128x128x128) (broadcastTo S128x128x128 (shapeCast S1x128x128 b shapeCasts_S128x128_S1x128x128) broadcasts_S1x128x128_S128x128x128)) 0xFF800000#32 reduces_S128x128x128_S128x128 (.inl rfl) rfl) (ix2 p q)
      = (Finset.univ : Finset (Fin 128)).fold max Cert.MaxPlus.start (fun j => a (ix2 p j) - b (ix2 j q)) := by
  refine (Ideal.multiReduction_maximumf_single _ _ reduces_S128x128x128_S128x128 (.inl rfl) rfl (ix2 p q)).trans ?_
  refine Finset.fold_congr fun j _ => ?_
  show subf _ _ (reduces_S128x128x128_S128x128.lift (ix2 p q) j) = _
  rw [lift_mid, subf_apply, rows_apply, cols_apply]
  rfl

/-- The zero offsets, as the printed rectangles spell them. -/
theorem hz : (![0, 0] : Fin 2 → Nat) = fun _ => 0 := funext fun a => by
  match a with
  | ⟨0, _⟩ => rfl
  | ⟨1, _⟩ => rfl

/-- The bias row broadcast down the block, at (p, q), is the row's entry q. -/
theorem bias_apply (v : Vec Ideal S1x128 .f32) (p q : Fin 128) :
    (broadcastTo S128x128 (shapeCast S1x128 v shapeCasts_S1x128_S1x128) broadcasts_S1x128_S128x128) (ix2 p q) = v (ix2 (0 : Fin 1) q) := by
  refine (broadcastTo_apply _ _ (ix2 p q) (ix2 (0 : Fin 1) q) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
  · rw [shapeCast_self]

/-- The accumulator's start, as the body spells it, is the specification's. -/
theorem start_eq : Scalar.ofBits (F := Ideal) .f32 0xFF800000#32 = Cert.MaxPlus.start := rfl

section Tree

variable {F : FTy → Type} [FloatOps F]

/-- THE BODY AS A TREE, at any float instance: over its seventeen loads — eight pieces `a_c` of x, eight pieces `b_c` of
    k, the bias row `v` — the stored value at an index `i` is the accumulator's start, folded by the float maximum with
    the eight chunk reductions at `i` one after the other, then with the broadcast bias at `i`. -/
theorem body_tree (a0 b0 a1 b1 a2 b2 a3 b3 a4 b4 a5 b5 a6 b6 a7 b7 : Vec F S128x128 .f32) (v : Vec F S1x128 .f32) (i : S128x128.Idx) :
    (k0_pay1 (k0_pay3 (k0_pay2 a0 b0 a1 b1 a2 b2 a3 b3) a4 b4 a5 b5 a6 b6 a7 b7) (k0_pay4 v)) i
      = FloatOps.maximumf (FloatOps.maximumf (FloatOps.maximumf (FloatOps.maximumf (FloatOps.maximumf (FloatOps.maximumf (FloatOps.maximumf (FloatOps.maximumf (FloatOps.maximumf (Scalar.ofBits .f32 0xFF800000#32) ((multiReduction .maximumf [1] S128x128 (subf (broadcastTo S128x128x128 (shapeCast S128x128x1 a0 shapeCasts_S128x128_S128x128x1) broadcasts_S128x128x1_S128x128x128) (broadcastTo S128x128x128 (shapeCast S1x128x128 b0 shapeCasts_S128x128_S1x128x128) broadcasts_S1x128x128_S128x128x128)) 0xFF800000#32 reduces_S128x128x128_S128x128 (.inl rfl) rfl) i)) ((multiReduction .maximumf [1] S128x128 (subf (broadcastTo S128x128x128 (shapeCast S128x128x1 a1 shapeCasts_S128x128_S128x128x1) broadcasts_S128x128x1_S128x128x128) (broadcastTo S128x128x128 (shapeCast S1x128x128 b1 shapeCasts_S128x128_S1x128x128) broadcasts_S1x128x128_S128x128x128)) 0xFF800000#32 reduces_S128x128x128_S128x128 (.inl rfl) rfl) i)) ((multiReduction .maximumf [1] S128x128 (subf (broadcastTo S128x128x128 (shapeCast S128x128x1 a2 shapeCasts_S128x128_S128x128x1) broadcasts_S128x128x1_S128x128x128) (broadcastTo S128x128x128 (shapeCast S1x128x128 b2 shapeCasts_S128x128_S1x128x128) broadcasts_S1x128x128_S128x128x128)) 0xFF800000#32 reduces_S128x128x128_S128x128 (.inl rfl) rfl) i)) ((multiReduction .maximumf [1] S128x128 (subf (broadcastTo S128x128x128 (shapeCast S128x128x1 a3 shapeCasts_S128x128_S128x128x1) broadcasts_S128x128x1_S128x128x128) (broadcastTo S128x128x128 (shapeCast S1x128x128 b3 shapeCasts_S128x128_S1x128x128) broadcasts_S1x128x128_S128x128x128)) 0xFF800000#32 reduces_S128x128x128_S128x128 (.inl rfl) rfl) i)) ((multiReduction .maximumf [1] S128x128 (subf (broadcastTo S128x128x128 (shapeCast S128x128x1 a4 shapeCasts_S128x128_S128x128x1) broadcasts_S128x128x1_S128x128x128) (broadcastTo S128x128x128 (shapeCast S1x128x128 b4 shapeCasts_S128x128_S1x128x128) broadcasts_S1x128x128_S128x128x128)) 0xFF800000#32 reduces_S128x128x128_S128x128 (.inl rfl) rfl) i)) ((multiReduction .maximumf [1] S128x128 (subf (broadcastTo S128x128x128 (shapeCast S128x128x1 a5 shapeCasts_S128x128_S128x128x1) broadcasts_S128x128x1_S128x128x128) (broadcastTo S128x128x128 (shapeCast S1x128x128 b5 shapeCasts_S128x128_S1x128x128) broadcasts_S1x128x128_S128x128x128)) 0xFF800000#32 reduces_S128x128x128_S128x128 (.inl rfl) rfl) i)) ((multiReduction .maximumf [1] S128x128 (subf (broadcastTo S128x128x128 (shapeCast S128x128x1 a6 shapeCasts_S128x128_S128x128x1) broadcasts_S128x128x1_S128x128x128) (broadcastTo S128x128x128 (shapeCast S1x128x128 b6 shapeCasts_S128x128_S1x128x128) broadcasts_S1x128x128_S128x128x128)) 0xFF800000#32 reduces_S128x128x128_S128x128 (.inl rfl) rfl) i)) ((multiReduction .maximumf [1] S128x128 (subf (broadcastTo S128x128x128 (shapeCast S128x128x1 a7 shapeCasts_S128x128_S128x128x1) broadcasts_S128x128x1_S128x128x128) (broadcastTo S128x128x128 (shapeCast S1x128x128 b7 shapeCasts_S128x128_S1x128x128) broadcasts_S1x128x128_S128x128x128)) 0xFF800000#32 reduces_S128x128x128_S128x128 (.inl rfl) rfl) i)) ((broadcastTo S128x128 (shapeCast S1x128 v shapeCasts_S1x128_S1x128) broadcasts_S1x128_S128x128) i) := rfl

end Tree

/-- A running float maximum at the ideal instance is the running `max` of the extended reals, entry by entry. -/
theorem running_eq (s s' c0 d0 c1 d1 c2 d2 c3 d3 c4 d4 c5 d5 c6 d6 c7 d7 cb db : EReal) (hs : s = s')
    (h0 : c0 = d0) (h1 : c1 = d1) (h2 : c2 = d2) (h3 : c3 = d3) (h4 : c4 = d4) (h5 : c5 = d5) (h6 : c6 = d6) (h7 : c7 = d7) (hb : cb = db) :
    FloatOps.maximumf (F := Ideal) (φ := .f32) (FloatOps.maximumf (F := Ideal) (φ := .f32) (FloatOps.maximumf (F := Ideal) (φ := .f32) (FloatOps.maximumf (F := Ideal) (φ := .f32) (FloatOps.maximumf (F := Ideal) (φ := .f32) (FloatOps.maximumf (F := Ideal) (φ := .f32) (FloatOps.maximumf (F := Ideal) (φ := .f32) (FloatOps.maximumf (F := Ideal) (φ := .f32) (FloatOps.maximumf (F := Ideal) (φ := .f32) (s) c0) c1) c2) c3) c4) c5) c6) c7) cb
      = max (max (max (max (max (max (max (max (max (s') d0) d1) d2) d3) d4) d5) d6) d7) db := by
  subst hs h0 h1 h2 h3 h4 h5 h6 h7 hb
  rfl

/-- Equal entries give equal running maxima. -/
theorem running_congr (s c0 d0 c1 d1 c2 d2 c3 d3 c4 d4 c5 d5 c6 d6 c7 d7 : EReal)
    (h0 : c0 = d0) (h1 : c1 = d1) (h2 : c2 = d2) (h3 : c3 = d3) (h4 : c4 = d4) (h5 : c5 = d5) (h6 : c6 = d6) (h7 : c7 = d7) :
    max (max (max (max (max (max (max (max (s) c0) c1) c2) c3) c4) c5) c6) c7 = max (max (max (max (max (max (max (max (s) d0) d1) d2) d3) d4) d5) d6) d7 := by
  subst h0 h1 h2 h3 h4 h5 h6 h7
  rfl

/-- THE BODY'S ARITHMETIC at the ideal instance, at (p, q): the running maximum, from -∞, of the eight chunk maxima
    `max over j of (a_c[p, j] - b_c[j, q])`, then `max` with the bias entry. -/
theorem body_apply (a0 b0 a1 b1 a2 b2 a3 b3 a4 b4 a5 b5 a6 b6 a7 b7 : Vec Ideal S128x128 .f32) (v : Vec Ideal S1x128 .f32) (p q : Fin 128) :
    (k0_pay1 (k0_pay3 (k0_pay2 a0 b0 a1 b1 a2 b2 a3 b3) a4 b4 a5 b5 a6 b6 a7 b7) (k0_pay4 v)) (ix2 p q)
      = max (max (max (max (max (max (max (max (max (Cert.MaxPlus.start)
      ((Finset.univ : Finset (Fin 128)).fold max Cert.MaxPlus.start fun j => a0 (ix2 p j) - b0 (ix2 j q)))
      ((Finset.univ : Finset (Fin 128)).fold max Cert.MaxPlus.start fun j => a1 (ix2 p j) - b1 (ix2 j q)))
      ((Finset.univ : Finset (Fin 128)).fold max Cert.MaxPlus.start fun j => a2 (ix2 p j) - b2 (ix2 j q)))
      ((Finset.univ : Finset (Fin 128)).fold max Cert.MaxPlus.start fun j => a3 (ix2 p j) - b3 (ix2 j q)))
      ((Finset.univ : Finset (Fin 128)).fold max Cert.MaxPlus.start fun j => a4 (ix2 p j) - b4 (ix2 j q)))
      ((Finset.univ : Finset (Fin 128)).fold max Cert.MaxPlus.start fun j => a5 (ix2 p j) - b5 (ix2 j q)))
      ((Finset.univ : Finset (Fin 128)).fold max Cert.MaxPlus.start fun j => a6 (ix2 p j) - b6 (ix2 j q)))
      ((Finset.univ : Finset (Fin 128)).fold max Cert.MaxPlus.start fun j => a7 (ix2 p j) - b7 (ix2 j q)))
        (v (ix2 (0 : Fin 1) q)) :=
  (body_tree (F := Ideal) a0 b0 a1 b1 a2 b2 a3 b3 a4 b4 a5 b5 a6 b6 a7 b7 v (ix2 p q)).trans
    (running_eq _ _ _ _ _ _ _ _ _ _ _ _ _ _ _ _ _ _ _ _  start_eq
      (piece_apply a0 b0 p q) (piece_apply a1 b1 p q) (piece_apply a2 b2 p q) (piece_apply a3 b3 p q) (piece_apply a4 b4 p q) (piece_apply a5 b5 p q) (piece_apply a6 b6 p q) (piece_apply a7 b7 p q) (bias_apply v p q))

/-- The difference the maximum is taken of, at contracted index `i`. -/
def diffAt (x0 : Vec Ideal S128x1024 .f32) (x1 : Vec Ideal S1024x128 .f32) (p q : Fin 128) (i : Fin 1024) : EReal :=
  x0 (ix2 p i) - x1 (ix2 i q)

/-- The same difference, addressed by chunk `c` and position `j` inside the chunk: `i = 128 c + j`. -/
def chunkAt (x0 : Vec Ideal S128x1024 .f32) (x1 : Vec Ideal S1024x128 .f32) (p q : Fin 128) (c : Fin 8) (j : Fin 128) : EReal :=
  diffAt x0 x1 p q ⟨128 * c.val + j.val, by have := c.isLt; have := j.isLt; omega⟩

/-- Every index below 1024 is `128 c + j` for its quotient and remainder by 128. -/
theorem diffAt_eq_chunkAt (x0 : Vec Ideal S128x1024 .f32) (x1 : Vec Ideal S1024x128 .f32) (p q : Fin 128) (i : Fin 1024) :
    diffAt x0 x1 p q i = chunkAt x0 x1 p q ⟨i.val / 128, by have := i.isLt; omega⟩ ⟨i.val % 128, Nat.mod_lt _ (by decide)⟩ := by
  unfold chunkAt
  exact congrArg (diffAt x0 x1 p q) (Fin.ext (Nat.div_add_mod i.val 128).symm)

/-- The pieces of x and k loaded at offset `o = 128 c` along the contracted index hold, at (p, j) and (j, q), the entries
    x[p, 128 c + j] and k[128 c + j, q]: chunk `c`'s maximum over the loaded pieces is its maximum over the blocks. -/
theorem fold_ld (x0 : Vec Ideal S128x1024 .f32) (x1 : Vec Ideal S1024x128 .f32) (p q : Fin 128) (c : Fin 8) (o : Nat)
    (ho : o = 128 * c.val)
    (inb0 : ∀ a, (![0, o] : Fin 2 → Nat) a + S128x128.size a ≤ S128x1024.size a)
    (inb1 : ∀ a, (![o, 0] : Fin 2 → Nat) a + S128x128.size a ≤ S1024x128.size a) :
    ((Finset.univ : Finset (Fin 128)).fold max Cert.MaxPlus.start fun j =>
        View.ld x0 (Rect.unit (s := S128x1024) ![0, o] S128x128.size inb0) (ix2 p j)
          - View.ld x1 (Rect.unit (s := S1024x128) ![o, 0] S128x128.size inb1) (ix2 j q))
      = (Finset.univ : Finset (Fin 128)).fold max Cert.MaxPlus.start (chunkAt x0 x1 p q c) := by
  subst ho
  refine Finset.fold_congr fun j _ => ?_
  have hc : c.val < 8 := c.isLt
  have hj : j.val < 128 := j.isLt
  have e0 : (Rect.unit (s := S128x1024) ![0, 128 * c.val] S128x128.size inb0).idx (ix2 p j)
      = ix2 p (⟨128 * c.val + j.val, by omega⟩ : Fin 1024) := by
    funext a
    apply Fin.ext
    match a with
    | ⟨0, _⟩ => show 0 + 1 * p.val = p.val; omega
    | ⟨1, _⟩ => show 128 * c.val + 1 * j.val = 128 * c.val + j.val; omega
  have e1 : (Rect.unit (s := S1024x128) ![128 * c.val, 0] S128x128.size inb1).idx (ix2 j q)
      = ix2 (⟨128 * c.val + j.val, by omega⟩ : Fin 1024) q := by
    funext a
    apply Fin.ext
    match a with
    | ⟨0, _⟩ => show 128 * c.val + 1 * j.val = 128 * c.val + j.val; omega
    | ⟨1, _⟩ => show 0 + 1 * q.val = q.val; omega
  show x0 _ - x1 _ = x0 _ - x1 _
  rw [e0, e1]

/-- THE BLOCK: what the body leaves in its output block at (p, q), from its three input blocks:
    `max (max over i < 1024 of (x[p, i] - k[i, q])) bias[0, q]`. -/
theorem block_apply (x0 : Vec Ideal S128x1024 .f32) (x1 : Vec Ideal S1024x128 .f32) (x2 : Vec Ideal S1x128 .f32) (p q : Fin 128) :
    out0_3 (F := Ideal) x0 x1 x2 (ix2 p q)
      = max ((Finset.univ : Finset (Fin 1024)).fold max Cert.MaxPlus.start (diffAt x0 x1 p q)) (x2 (ix2 (0 : Fin 1) q)) := by
  unfold out0_3
  rw [View.canon_unit_zero hz]
  refine (body_apply (View.ld x0 r0_0) (View.ld x1 r0_1) (View.ld x0 r0_2) (View.ld x1 r0_3) (View.ld x0 r0_4) (View.ld x1 r0_5) (View.ld x0 r0_6) (View.ld x1 r0_7) (View.ld x0 r0_8) (View.ld x1 r0_9) (View.ld x0 r0_10) (View.ld x1 r0_11) (View.ld x0 r0_12) (View.ld x1 r0_13) (View.ld x0 r0_14) (View.ld x1 r0_15) (View.ld x2 r0_16) p q).trans ?_
  refine (congrArg₂ max
    (running_congr Cert.MaxPlus.start _ _ _ _ _ _ _ _ _ _ _ _ _ _ _ _
      (fold_ld x0 x1 p q 0 0 rfl inb_S128x1024_S128x128_0_0 inb_S1024x128_S128x128_0_0)
      (fold_ld x0 x1 p q 1 128 rfl inb_S128x1024_S128x128_0_128 inb_S1024x128_S128x128_128_0)
      (fold_ld x0 x1 p q 2 256 rfl inb_S128x1024_S128x128_0_256 inb_S1024x128_S128x128_256_0)
      (fold_ld x0 x1 p q 3 384 rfl inb_S128x1024_S128x128_0_384 inb_S1024x128_S128x128_384_0)
      (fold_ld x0 x1 p q 4 512 rfl inb_S128x1024_S128x128_0_512 inb_S1024x128_S128x128_512_0)
      (fold_ld x0 x1 p q 5 640 rfl inb_S128x1024_S128x128_0_640 inb_S1024x128_S128x128_640_0)
      (fold_ld x0 x1 p q 6 768 rfl inb_S128x1024_S128x128_0_768 inb_S1024x128_S128x128_768_0)
      (fold_ld x0 x1 p q 7 896 rfl inb_S128x1024_S128x128_0_896 inb_S1024x128_S128x128_896_0))
    (congrFun (View.ld_unit_zero (S := S1x128) hz inb_S1x128_S1x128_0_0 x2) (ix2 (0 : Fin 1) q))).trans ?_
  exact congrArg (fun z => max z (x2 (ix2 (0 : Fin 1) q)))
    (Cert.Lib.runningMax8_eq Cert.MaxPlus.start (diffAt x0 x1 p q) (chunkAt x0 x1 p q)
      (fun c j => ⟨_, rfl⟩) (fun i => ⟨_, _, diffAt_eq_chunkAt x0 x1 p q i⟩))

end Cert.KernelIdeal.BlockValue

end
-- ==== Proof.KernelValue.lean ====
/-
  From blocks to the array. The grid has 2 x 8 points; point t = (i, j) reads rows 128 i .. 128 i + 127 of x (all 1024
  columns), columns 128 j .. 128 j + 127 of k (all 1024 rows) and of the bias row, and writes the [128, 128] block (i, j)
  of the [256, 1024] result. By `BlockValue.block_apply` the block's entry (p, q) is the max-plus value of row
  128 i + p and column 128 j + q of the ARRAYS, so what point t writes back is block t of ONE whole-array function
  (`flushed_eq`); the sixteen blocks tile the result (`cover`), so the result array ends holding that function, which is
  `MaxPlus.dense` of the three arguments: the bias reaches the kernel through a host reshape [1024] -> [1, 1024] that
  moves no entry (`bArr_apply`).
-/
import proofs.«131170_j10393820857004_1_alg».proof.Proof.Gen.KernelIdeal.Value
import proofs.«131170_j10393820857004_1_alg».proof.Proof.BlockValue
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three arrays the region stages, as it finds them, and each one's block at a grid point. -/
abbrev xArr (c : Dev nD) : Vec Ideal S256x1024 .f32 := V m c main_arg0
abbrev kArr (c : Dev nD) : Vec Ideal S1024x1024 .f32 := V m c main_arg1
abbrev bArr (c : Dev nD) : Vec Ideal S1x1024 .f32 := V m c main_v0
abbrev xBlk (c : Dev nD) (t : Fin cfg0.N) : Vec Ideal S128x1024 .f32 := iblk m c 0 t
abbrev kBlk (c : Dev nD) (t : Fin cfg0.N) : Vec Ideal S1024x128 .f32 := iblk m c 1 t
abbrev bBlk (c : Dev nD) (t : Fin cfg0.N) : Vec Ideal S1x128 .f32 := iblk m c 2 t

/-- The whole-array function the result ends holding, over the arrays as the region finds them. -/
def arrG (c : Dev nD) : S256x1024.Idx → EReal := fun i =>
  max ((Finset.univ : Finset (Fin 1024)).fold max Cert.MaxPlus.start fun r => xArr m c (ix2 (i 0) r) - kArr m c (ix2 r (i 1)))
    (bArr m c (ix2 (0 : Fin 1) (i 1)))

theorem arrG_apply (c : Dev nD) (b : Fin 256) (u : Fin 1024) :
    arrG m c (ix2 b u)
      = max ((Finset.univ : Finset (Fin 1024)).fold max Cert.MaxPlus.start fun r => xArr m c (ix2 b r) - kArr m c (ix2 r u))
          (bArr m c (ix2 (0 : Fin 1) u)) := rfl

/-- The printed index maps over the grid: x's block follows the result's block row and has block column 0; k's and the
    bias's follow the result's block column and have block row 0; the result's block indices fill 2 x 8. -/
theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 1 ∧ win0_3.index t (1 : Fin 2) ≤ 7 :=
  (by decide +kernel : ∀ t : Fin grid0.N, _)

/-- Every block of the 2 x 8 tiling is some point's. -/
theorem idx_onto : ∀ (q0 : Fin 2) (q1 : Fin 8), ∃ t : Fin cfg0.N, win0_3.index t = ![q0.val, q1.val] :=
  (by decide +kernel : ∀ (q0 : Fin 2) (q1 : Fin 8), ∃ t : Fin grid0.N, win0_3.index t = ![q0.val, q1.val])

/-- x's block at point t, entry (p, r), is x at row (block row of t) * 128 + p, column r. -/
theorem xBlk_apply (c : Dev nD) (t : Fin cfg0.N) (p : Fin 128) (r : Fin 1024) (b : Fin 256)
    (hb : b.val = win0_3.index t (0 : Fin 2) * 128 + p.val) : xBlk m c t (ix2 p r) = xArr m c (ix2 b r) := by
  obtain ⟨e0, e1, -⟩ := idx_facts t
  show V m c main_arg0 (((cfg0.win 0).blk t).view.emb (ix2 p r)) = V m c main_arg0 (ix2 b r)
  refine congrArg (V m c main_arg0) (funext fun a => Fin.ext ?_)
  match a with
  | ⟨0, _⟩ => show win0_0.index t (0 : Fin 2) * 128 + 1 * p.val = b.val; omega
  | ⟨1, _⟩ => show win0_0.index t (1 : Fin 2) * 1024 + 1 * r.val = r.val; omega

/-- k's block at point t, entry (r, q), is k at row r, column (block column of t) * 128 + q. -/
theorem kBlk_apply (c : Dev nD) (t : Fin cfg0.N) (r : Fin 1024) (q : Fin 128) (u : Fin 1024)
    (hu : u.val = win0_3.index t (1 : Fin 2) * 128 + q.val) : kBlk m c t (ix2 r q) = kArr m c (ix2 r u) := by
  obtain ⟨-, -, e2, e3, -⟩ := idx_facts t
  show V m c main_arg1 (((cfg0.win 1).blk t).view.emb (ix2 r q)) = V m c main_arg1 (ix2 r u)
  refine congrArg (V m c main_arg1) (funext fun a => Fin.ext ?_)
  match a with
  | ⟨0, _⟩ => show win0_1.index t (0 : Fin 2) * 1024 + 1 * r.val = r.val; omega
  | ⟨1, _⟩ => show win0_1.index t (1 : Fin 2) * 128 + 1 * q.val = u.val; omega

/-- The bias block at point t, entry (0, q), is the bias row at column (block column of t) * 128 + q. -/
theorem bBlk_apply (c : Dev nD) (t : Fin cfg0.N) (q : Fin 128) (u : Fin 1024)
    (hu : u.val = win0_3.index t (1 : Fin 2) * 128 + q.val) :
    bBlk m c t (ix2 (0 : Fin 1) q) = bArr m c (ix2 (0 : Fin 1) u) := by
  obtain ⟨-, -, -, -, e4, e5, -⟩ := idx_facts t
  show V m c main_v0 (((cfg0.win 2).blk t).view.emb (ix2 (0 : Fin 1) q)) = V m c main_v0 (ix2 (0 : Fin 1) u)
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 128 + 1 * q.val = u.val; omega

/-- The body's result at block entry (p, q) of point t is the whole-array function at row b = 128 (block row) + p and
    column u = 128 (block column) + q. -/
theorem entry_eq (c : Dev nD) (t : Fin cfg0.N) (p q : Fin 128) (b : Fin 256) (u : Fin 1024)
    (hb : b.val = win0_3.index t (0 : Fin 2) * 128 + p.val) (hu : u.val = win0_3.index t (1 : Fin 2) * 128 + q.val) :
    out0_3 (xBlk m c t) (kBlk m c t) (bBlk m c t) (ix2 p q) = arrG m c (ix2 b u) := by
  rw [BlockValue.block_apply, arrG_apply]
  unfold BlockValue.diffAt
  refine congrArg₂ max (Finset.fold_congr fun r _ => ?_) (bBlk_apply m c t q u hu)
  rw [xBlk_apply m c t p r b hb, kBlk_apply m c t r q u hu]

/-- What the body leaves in the result's block at point t, entry by entry, is the whole-array function at the entry's
    place in the array. -/
theorem flushed_entry (c : Dev nD) (t : Fin cfg0.N) (y : S128x128.Idx) :
    out0_3 (xBlk m c t) (kBlk m c t) (bBlk m c t) y = arrG m c (((cfg0.win 3).blk t).view.emb y) := by
  obtain ⟨p, q, rfl⟩ : ∃ (p q : Fin 128), y = ix2 p q := ⟨y 0, y 1, eq_ix2 y⟩
  obtain ⟨-, -, -, -, -, -, f0, f1⟩ := idx_facts t
  have hp : p.val < 128 := p.isLt
  have hq : q.val < 128 := q.isLt
  have he : ((cfg0.win 3).blk t).view.emb (ix2 p q)
      = ix2 (⟨win0_3.index t (0 : Fin 2) * 128 + p.val, by omega⟩ : Fin 256)
          (⟨win0_3.index t (1 : Fin 2) * 128 + q.val, by omega⟩ : Fin 1024) := by
    funext a
    apply Fin.ext
    match a with
    | ⟨0, _⟩ => show win0_3.index t (0 : Fin 2) * 128 + 1 * p.val = win0_3.index t (0 : Fin 2) * 128 + p.val; omega
    | ⟨1, _⟩ => show win0_3.index t (1 : Fin 2) * 128 + 1 * q.val = win0_3.index t (1 : Fin 2) * 128 + q.val; omega
  rw [he]
  exact entry_eq m c t p q _ _ rfl rfl

/-- WHAT POINT t WRITES BACK is block t of the whole-array function. -/
theorem flushed_eq (c : Dev nD) (t : Fin cfg0.N) :
    (dats m 0 c).flushed 3 t = ((cfg0.win 3).blk t).view.read (Elt Ideal) (arrG m c) := by
  rw [Value.flushed3]
  funext y
  exact flushed_entry m c t y

/-- An index of the result is in point t's block iff each coordinate is in the block's range on its axis. -/
theorem mem_blk (t : Fin cfg0.N) (i : S256x1024.Idx) :
    i ∈ ((cfg0.win 3).blk t).view.set ↔ ∀ a : Fin 2, win0_3.index t a * S128x128.size a ≤ (i a).val
      ∧ (i a).val < win0_3.index t a * S128x128.size a + S128x128.size a := by
  show i ∈ ((View.whole main_v1).slice (win0_3.rect t)).set ↔ _
  rw [View.set_slice_whole, Rect.mem_set_unit]
  exact Iff.rfl

/-- The sixteen blocks tile the result: entry (b, u) lies in the block of the point with block indices (b / 128, u / 128). -/
theorem cover (i : S256x1024.Idx) :
    ∃ t : Fin cfg0.N, (cfg0.win 3).flush t = true ∧ i ∈ ((cfg0.win 3).blk t).view.set := by
  have hi0 : (i 0).val < 256 := (i 0).isLt
  have hi1 : (i 1).val < 1024 := (i 1).isLt
  obtain ⟨t, ht⟩ := idx_onto ⟨(i 0).val / 128, by omega⟩ ⟨(i 1).val / 128, by omega⟩
  have q0 : win0_3.index t (0 : Fin 2) = (i 0).val / 128 := congrFun ht 0
  have q1 : win0_3.index t (1 : Fin 2) = (i 1).val / 128 := congrFun ht 1
  refine ⟨t, flush0_3 t, ?_⟩
  rw [mem_blk]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 128 ≤ (i 1).val ∧ (i 1).val < win0_3.index t (1 : Fin 2) * 128 + 128
    omega

/-- THE RESULT ARRAY after the run is the whole-array function. -/
theorem final (c : Dev nD) : (dats m 0 c).arrAt 3 cfg0.N = arrG m c :=
  (dats m 0 c).arrAt_eq_of_cover 3 (arrG m c) (fun t _ => flushed_eq m c t) cover

/-- The bias row as the region finds it — the host's reshape of the bias argument to [1, 1024] — holds bias[u] at (0, u). -/
theorem bArr_apply (c : Dev nD) (u : Fin 1024) :
    bArr m c (ix2 (0 : Fin 1) u) = m ((c : Thread nD τ).loc main_arg2) (ix1 u) := by
  have e : (V m c main_v0 : S1x1024.Idx → EReal)
      = shapeCast S1x1024 (m ((c : Thread nD τ).loc main_arg2)) shapeCasts_S1024_S1x1024 := by
    dsimp only [Gen.V, Gen.hostOps0]
    after_results
    rfl
  show V m c main_v0 (ix2 (0 : Fin 1) u) = _
  rw [e]
  refine shapeCast_apply _ _ _ (ix1 u) ?_
  rw [Shape.rowMajor_val_one, Shape.rowMajor_val_two]
  show u.val = 0 * 1024 + u.val
  omega

/-- The whole-array function is the max-plus dense layer of the three ARGUMENTS: x and k reach the region untouched. -/
theorem arrG_eq (c : Dev nD) :
    arrG m c = Cert.MaxPlus.dense (m ((c : Thread nD τ).loc main_arg0)) (m ((c : Thread nD τ).loc main_arg1))
      (m ((c : Thread nD τ).loc main_arg2)) := by
  funext i
  obtain ⟨b, u, rfl⟩ : ∃ (b : Fin 256) (u : Fin 1024), i = ix2 b u := ⟨i 0, i 1, eq_ix2 i⟩
  have hx : xArr m c = m ((c : Thread nD τ).loc main_arg0) := V_main_arg0 m c
  have hk : kArr m c = m ((c : Thread nD τ).loc main_arg1) := V_main_arg1 m c
  rw [arrG_apply, Cert.MaxPlus.dense_apply, bArr_apply, hx, hk]

/-- THE KERNEL'S RUN at the ideal instance: it terminates with the result array at `MaxPlus.dense` of the arguments,
    the arguments unchanged. -/
theorem run : θ_run defs (onTc (τ := τ) (main (F := Ideal))) ⟨m, fun _ => 0, ρ⟩ fun r => ∀ c : Dev nD,
      r.2.mem ((c : Thread nD τ).loc main_v1)
        = Cert.MaxPlus.dense (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (arrG_eq m c)), (h c).2⟩)
    (Value.run_blocks m ρ)

end Cert.KernelIdeal.KernelValue

end
-- ==== Proof.lean ====
/-
  The certificate of a max-plus ("tropical") dense layer: for x : [256, 1024], k : [1024, 1024], bias : [1024],

      out[b, u] = max ( max over i < 1024 of (x[b, i] - k[i, u]) , bias[u] ).

  The reference computes it in one piece: both operands broadcast to [256, 1024, 1024], subtracted, reduced by `max` over
  the middle axis from -∞, then `max` with the bias broadcast along the rows (`RefValue.result_eq`). The kernel tiles
  the result in 2 x 8 blocks of [128, 128]; in a block it walks the contracted index in eight chunks of 128, takes each
  chunk's maximum from -∞ and folds it into an accumulator that starts at -∞, then takes `max` with the bias row
  (`BlockValue.block_apply`, `KernelValue.run`). Over the extended reals the two agree entry by entry because a running
  maximum over the chunks of an index range is the maximum over the range (`Lib.runningMax8_eq`): only that `max` is
  associative, commutative and idempotent is used, so nothing is asked of the inputs — the differences x[b, i] - k[i, u]
  are the same terms on both sides, whatever their values, and -∞ is the same starting word on both sides.

  The three frames are the generated ones (the reference's is its run with the result dropped); the idealization rewrote
  no operation, so the `preserves` claim is `True`.
-/
import proofs.«131170_j10393820857004_1_alg».proof.Defs
import proofs.«131170_j10393820857004_1_alg».proof.Proof.Gen.Kernel
import proofs.«131170_j10393820857004_1_alg».proof.Proof.Gen.Kernel.Skeleton
import proofs.«131170_j10393820857004_1_alg».proof.Proof.Gen.Kernel.Launch
import proofs.«131170_j10393820857004_1_alg».proof.Proof.Gen.Kernel.Points
import proofs.«131170_j10393820857004_1_alg».proof.Proof.Gen.Kernel.Frame
import proofs.«131170_j10393820857004_1_alg».proof.Proof.Gen.KernelIdeal
import proofs.«131170_j10393820857004_1_alg».proof.Proof.Gen.KernelIdeal.Skeleton
import proofs.«131170_j10393820857004_1_alg».proof.Proof.Gen.KernelIdeal.Launch
import proofs.«131170_j10393820857004_1_alg».proof.Proof.Gen.KernelIdeal.Points
import proofs.«131170_j10393820857004_1_alg».proof.Proof.Gen.KernelIdeal.Frame
import proofs.«131170_j10393820857004_1_alg».proof.Proof.Gen.ReferenceIdeal
import proofs.«131170_j10393820857004_1_alg».proof.Proof.Gen.KernelIdeal.Value
import proofs.«131170_j10393820857004_1_alg».proof.Proof.Gen.ReferenceIdeal.Run
import proofs.«131170_j10393820857004_1_alg».proof.Proof.Gen.ReferenceIdeal.Read
import proofs.«131170_j10393820857004_1_alg».proof.Proof.Gen.Pre_finite_inputs
import proofs.«131170_j10393820857004_1_alg».proof.Proof.RefValue
import proofs.«131170_j10393820857004_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on x, k and the bias, end with their result arrays at the max-plus dense
    layer of those arguments. -/
theorem algebraic : Cert.algebraic_KernelIdeal_ReferenceIdeal := by
  intro m ρ m' ρ' _ hagree
  refine ⟨fun c => Cert.MaxPlus.dense (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq _ _ _).trans ((Cert.ReferenceIdeal.RefValue.result_eq _ _ _).trans ?_)
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
